-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v104)) (v1 : (c : Dev Cert.KernelIdeal.nD) → Buf (Elt Ideal) ((c.tc : Thread Cert.KernelIdeal.nD Cert.KernelIdeal.τ).loc Cert.KernelIdeal.main_v99)) (v2 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_v99) = v1 c
          ∧ r.2.mem ((c.tc : Thread Cert.KernelIdeal.nD Cert.KernelIdeal.τ).loc Cert.KernelIdeal.main_v103) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S8192x512 .f32) (main_arg1 : IVec S2x262144 32) (main_arg2 : FVec F S512x256 .f32) (main_arg3 : FVec F S256 .f32) (main_arg4 : FVec F S256x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S8192x512 : Shape := ⟨2, ![8192, 512]⟩
abbrev S2x262144 : Shape := ⟨2, ![2, 262144]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S278528 : Shape := ⟨1, ![278528]⟩
abbrev S_ : Shape := ⟨0, ![]⟩
abbrev S278528x1 : Shape := ⟨2, ![278528, 1]⟩
abbrev S8192x256 : Shape := ⟨2, ![8192, 256]⟩
abbrev S278528x256 : Shape := ⟨2, ![278528, 256]⟩
abbrev S1x256 : Shape := ⟨2, ![1, 256]⟩
abbrev S8192x128 : Shape := ⟨2, ![8192, 128]⟩
abbrev S278528x128 : Shape := ⟨2, ![278528, 128]⟩
abbrev S1x128 : Shape := ⟨2, ![1, 128]⟩
abbrev S8192x8192 : Shape := ⟨2, ![8192, 8192]⟩
abbrev S1024x128 : Shape := ⟨2, ![1024, 128]⟩
abbrev S1024x1024 : Shape := ⟨2, ![1024, 1024]⟩
abbrev S128x1024 : Shape := ⟨2, ![128, 1024]⟩

abbrev nBuf : Space → Nat
  | .hbm => 145
  | .vmem => 6
  | .smem => 0
  | _ => 0

abbrev hbmTy0_0 (i : Nat) : BufTy := match i % 128 with
  | 0 => ⟨S8192x512, .f32⟩
  | 1 => ⟨S2x262144, .i32⟩
  | 2 => ⟨S512x256, .f32⟩
  | 3 => ⟨S256, .f32⟩
  | 4 => ⟨S256x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S8192, .i32⟩
  | 11 => ⟨S1x262144, .i32⟩
  | 12 => ⟨S262144, .i32⟩
  | 13 => ⟨S270336, .i32⟩
  | 14 => ⟨S1x262144, .i32⟩
  | 15 => ⟨S262144, .i32⟩
  | 16 => ⟨S270336, .i32⟩
  | 17 => ⟨S8192, .i32⟩
  | 18 => ⟨S278528, .i32⟩
  | 19 => ⟨S278528, .i32⟩
  | 20 => ⟨S_, .f32⟩
  | 21 => ⟨S278528, .f32⟩
  | 22 => ⟨S_, .f32⟩
  | 23 => ⟨S8192, .f32⟩
  | 24 => ⟨S278528x1, .i32⟩
  | 25 => ⟨S8192, .f32⟩
  | 26 => ⟨S_, .f32⟩
  | 27 => ⟨S8192, .f32⟩
  | 28 => ⟨S8192, .i1⟩
  | 29 => ⟨S_, .f32⟩
  | 30 => ⟨S8192, .f32⟩
  | 31 => ⟨S8192, .f32⟩
  | 32 => ⟨S_, .f32⟩
  | 33 => ⟨S_, .f32⟩
  | 34 => ⟨S8192, .f32⟩
  | 35 => ⟨S8192, .f32⟩
  | 36 => ⟨S_, .i32⟩
  | 37 => ⟨S278528, .i32⟩
  | 38 => ⟨S278528, .i1⟩
  | 39 => ⟨S_, .i32⟩
  | 40 => ⟨S278528, .i32⟩
  | 41 => ⟨S278528, .i32⟩
  | 42 => ⟨S278528, .i32⟩
  | 43 => ⟨S278528x1, .i32⟩
  | 44 => ⟨S278528, .f32⟩
  | 45 => ⟨S_, .i32⟩
  | 46 => ⟨S278528, .i32⟩
  | 47 => ⟨S278528, .i1⟩
  | 48 => ⟨S_, .i32⟩
  | 49 => ⟨S278528, .i32⟩
  | 50 => ⟨S278528, .i32⟩
  | 51 => ⟨S278528, .i32⟩
  | 52 => ⟨S278528x1, .i32⟩
  | 53 => ⟨S278528, .f32⟩
  | 54 => ⟨S278528, .f32⟩
  | 55 => ⟨S8192x256, .f32⟩
  | 56 => ⟨S_, .i32⟩
  | 57 => ⟨S278528, .i32⟩
  | 58 => ⟨S278528, .i1⟩
  | 59 => ⟨S_, .i32⟩
  | 60 => ⟨S278528, .i32⟩
  | 61 => ⟨S278528, .i32⟩
  | 62 => ⟨S278528, .i32⟩
  | 63 => ⟨S278528x1, .i32⟩
  | 64 => ⟨S278528x256, .f32⟩
  | 65 => ⟨S278528x1, .f32⟩
  | 66 => ⟨S278528x256, .f32⟩
  | 67 => ⟨S278528x256, .f32⟩
  | 68 => ⟨S_, .f32⟩
  | 69 => ⟨S8192x256, .f32⟩
  | 70 => ⟨S278528x1, .i32⟩
  | 71 => ⟨S8192x256, .f32⟩
  | 72 => ⟨S1x256, .f32⟩
  | 73 => ⟨S8192x256, .f32⟩
  | 74 => ⟨S8192x256, .f32⟩
  | 75 => ⟨S_, .f32⟩
  | 76 => ⟨S8192x256, .f32⟩
  | 77 => ⟨S8192x256, .f32⟩
  | 78 => ⟨S8192, .i32⟩
  | 79 => ⟨S278528, .i32⟩
  | 80 => ⟨S278528, .i32⟩
  | 81 => ⟨S_, .f32⟩
  | 82 => ⟨S278528, .f32⟩
  | 83 => ⟨S_, .f32⟩
  | 84 => ⟨S8192, .f32⟩
  | 85 => ⟨S278528x1, .i32⟩
  | 86 => ⟨S8192, .f32⟩
  | 87 => ⟨S_, .f32⟩
  | 88 => ⟨S8192, .f32⟩
  | 89 => ⟨S8192, .i1⟩
  | 90 => ⟨S_, .f32⟩
  | 91 => ⟨S8192, .f32⟩
  | 92 => ⟨S8192, .f32⟩
  | 93 => ⟨S_, .f32⟩
  | 94 => ⟨S_, .f32⟩
  | 95 => ⟨S8192, .f32⟩
  | 96 => ⟨S8192, .f32⟩
  | 97 => ⟨S_, .i32⟩
  | 98 => ⟨S278528, .i32⟩
  | 99 => ⟨S278528, .i1⟩
  | 100 => ⟨S_, .i32⟩
  | 101 => ⟨S278528, .i32⟩
  | 102 => ⟨S278528, .i32⟩
  | 103 => ⟨S278528, .i32⟩
  | 104 => ⟨S278528x1, .i32⟩
  | 105 => ⟨S278528, .f32⟩
  | 106 => ⟨S_, .i32⟩
  | 107 => ⟨S278528, .i32⟩
  | 108 => ⟨S278528, .i1⟩
  | 109 => ⟨S_, .i32⟩
  | 110 => ⟨S278528, .i32⟩
  | 111 => ⟨S278528, .i32⟩
  | 112 => ⟨S278528, .i32⟩
  | 113 => ⟨S278528x1, .i32⟩
  | 114 => ⟨S278528, .f32⟩
  | 115 => ⟨S278528, .f32⟩
  | 116 => ⟨S8192x128, .f32⟩
  | 117 => ⟨S_, .i32⟩
  | 118 => ⟨S278528, .i32⟩
  | 119 => ⟨S278528, .i1⟩
  | 120 => ⟨S_, .i32⟩
  | 121 => ⟨S278528, .i32⟩
  | 122 => ⟨S278528, .i32⟩
  | 123 => ⟨S278528, .i32⟩
  | 124 => ⟨S278528x1, .i32⟩
  | 125 => ⟨S278528x128, .f32⟩
  | 126 => ⟨S278528x1, .f32⟩
  | 127 => ⟨S278528x128, .f32⟩
  | _ => ⟨S8192x512, .f32⟩

abbrev hbmTy0_1 (i : Nat) : BufTy := match i % 128 with
  | 0 => ⟨S278528x128, .f32⟩
  | 1 => ⟨S_, .f32⟩
  | 2 => ⟨S8192x128, .f32⟩
  | 3 => ⟨S278528x1, .i32⟩
  | 4 => ⟨S8192x128, .f32⟩
  | 5 => ⟨S1x128, .f32⟩
  | 6 => ⟨S8192x128, .f32⟩
  | 7 => ⟨S8192x128, .f32⟩
  | 8 => ⟨S8192x128, .f32⟩
  | 9 => ⟨S1x128, .f32⟩
  | 10 => ⟨S8192x128, .f32⟩
  | 11 => ⟨S8192x128, .f32⟩
  | 12 => ⟨S8192x128, .f32⟩
  | 13 => ⟨S1x128, .f32⟩
  | 14 => ⟨S8192x128, .f32⟩
  | 15 => ⟨S8192x128, .f32⟩
  | 16 => ⟨S8192x8192, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v63 : Ref sig .tc := ⟨.hbm, 96, rfl⟩
abbrev main_c_15 : Ref sig .tc := ⟨.hbm, 97, rfl⟩
abbrev main_v64 : Ref sig .tc := ⟨.hbm, 98, rfl⟩
abbrev main_v65 : Ref sig .tc := ⟨.hbm, 99, rfl⟩
abbrev main_c_16 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_17 : Ref sig .tc := ⟨.hbm, 106, rfl⟩
abbrev main_v71 : Ref sig .tc := ⟨.hbm, 107, rfl⟩
abbrev main_v72 : Ref sig .tc := ⟨.hbm, 108, rfl⟩
abbrev main_c_18 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_19 : Ref sig .tc := ⟨.hbm, 117, rfl⟩
abbrev main_v80 : Ref sig .tc := ⟨.hbm, 118, rfl⟩
abbrev main_v81 : Ref sig .tc := ⟨.hbm, 119, rfl⟩
abbrev main_c_20 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_21 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  concatenates_S270336_S8192_S278528_d0 : Shape.Concatenates [S270336, S8192] S278528 0
  bcast_S_S278528 : S_.BroadcastsInDim S278528 (![] : Fin 0 → Fin S278528.rank)
  bcast_S_S8192 : S_.BroadcastsInDim S8192 (![] : Fin 0 → Fin S8192.rank)
  bcast_S278528_S278528x1_0 : S278528.BroadcastsInDim S278528x1 (![0] : Fin 1 → Fin S278528x1.rank)
  bcast_S278528x1_S278528x256_0_1 : S278528x1.BroadcastsInDim S278528x256 (![0, 1] : Fin 2 → Fin S278528x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S278528x1_S278528x128_0_1 : S278528x1.BroadcastsInDim S278528x128 (![0, 1] : Fin 2 → Fin S278528x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  transposes_S1024x128_p1_0_S128x1024 : S1024x128.Transposes [1, 0] S128x1024
  inb_S1024x1024_S1024x1024_0_0 : ∀ a, (![0, 0] : Fin 2 → Nat) a + S1024x1024.size a ≤ S1024x1024.size a
  h_S1024x1024 : 0 < S1024x1024.numel
  scatter_S8192_S278528x1_S278528_n_0_0_1_wf : ScatterDims.WF S8192 S278528x1 S278528 [] [0] [0] 1
  gather_S8192_S278528x1_S278528_n_0_n_n_0_1_1_wf : GatherDims.WF S8192 S278528x1 S278528 [] [0] [] [0] [] 1 ![1]
  dot_S8192x512_S512x256_S8192x256_1_0_0_1_n_n_wf : DotDims.WF S8192x512 S512x256 S8192x256 [1] [0] [0] [1] [] []
  gather_S8192x256_S278528x1_S278528x256_1_0_n_n_0_1_1256_wf : GatherDims.WF S8192x256 S278528x1 S278528x256 [1] [0] [] [0] [] 1 ![1, 256]
  scatter_S8192x256_S278528x1_S278528x256_1_0_0_1_wf : ScatterDims.WF S8192x256 S278528x1 S278528x256 [1] [0] [0] 1
  dot_S8192x256_S256x128_S8192x128_1_0_0_1_n_n_wf : DotDims.WF S8192x256 S256x128 S8192x128 [1] [0] [0] [1] [] []
  gather_S8192x128_S278528x1_S278528x128_1_0_n_n_0_1_1128_wf : GatherDims.WF S8192x128 S278528x1 S278528x128 [1] [0] [] [0] [] 1 ![1, 128]
  scatter_S8192x128_S278528x1_S278528x128_1_0_0_1_wf : ScatterDims.WF S8192x128 S278528x1 S278528x128 [1] [0] [0] 1
  dot_S8192x128_S128x128_S8192x128_1_0_0_1_n_n_wf : DotDims.WF S8192x128 S128x128 S8192x128 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def scatter_S8192_S278528x1_S278528_n_0_0_1 : ScatterDims S8192 S278528x1 S278528 where
  updateWindowDims := []
  insertedWindowDims := [0]
  scatterDimsToOperandDims := [0]
  indexVectorDim := 1
  wf := scatter_S8192_S278528x1_S278528_n_0_0_1_wf
def gather_S8192_S278528x1_S278528_n_0_n_n_0_1_1 : GatherDims S8192 S278528x1 S278528 where
  offsetDims := []
  collapsedSliceDims := [0]
  operandBatchingDims := []
  startIndicesBatchingDims := []
  startIndexMap := [0]
  indexVectorDim := 1
  sliceSizes := ![1]
  wf := gather_S8192_S278528x1_S278528_n_0_n_n_0_1_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S278528x1_S278528x256_1_0_n_n_0_1_1256 : GatherDims S8192x256 S278528x1 S278528x256 where
  offsetDims := [1]
  collapsedSliceDims := [0]
  operandBatchingDims := []
  startIndicesBatchingDims := []
  startIndexMap := [0]
  indexVectorDim := 1
  sliceSizes := ![1, 256]
  wf := gather_S8192x256_S278528x1_S278528x256_1_0_n_n_0_1_1256_wf
def scatter_S8192x256_S278528x1_S278528x256_1_0_0_1 : ScatterDims S8192x256 S278528x1 S278528x256 where
  updateWindowDims := [1]
  insertedWindowDims := [0]
  scatterDimsToOperandDims := [0]
  indexVectorDim := 1
  wf := scatter_S8192x256_S278528x1_S278528x256_1_0_0_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S278528x1_S278528x128_1_0_n_n_0_1_1128 : GatherDims S8192x128 S278528x1 S278528x128 where
  offsetDims := [1]
  collapsedSliceDims := [0]
  operandBatchingDims := []
  startIndicesBatchingDims := []
  startIndexMap := [0]
  indexVectorDim := 1
  sliceSizes := ![1, 128]
  wf := gather_S8192x128_S278528x1_S278528x128_1_0_n_n_0_1_1128_wf
def scatter_S8192x128_S278528x1_S278528x128_1_0_0_1 : ScatterDims S8192x128 S278528x1 S278528x128 where
  updateWindowDims := [1]
  insertedWindowDims := [0]
  scatterDimsToOperandDims := [0]
  indexVectorDim := 1
  wf := scatter_S8192x128_S278528x1_S278528x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v99) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v99) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v104) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S2x262144 : Shape := ⟨2, ![2, 262144]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S278528 : Shape := ⟨1, ![278528]⟩
abbrev S_ : Shape := ⟨0, ![]⟩
abbrev S278528x1 : Shape := ⟨2, ![278528, 1]⟩
abbrev S8192x256 : Shape := ⟨2, ![8192, 256]⟩
abbrev S278528x256 : Shape := ⟨2, ![278528, 256]⟩
abbrev S1x256 : Shape := ⟨2, ![1, 256]⟩
abbrev S8192x128 : Shape := ⟨2, ![8192, 128]⟩
abbrev S278528x128 : Shape := ⟨2, ![278528, 128]⟩
abbrev S1x128 : Shape := ⟨2, ![1, 128]⟩
abbrev S128x8192 : Shape := ⟨2, ![128, 8192]⟩
abbrev S8192x8192 : Shape := ⟨2, ![8192, 8192]⟩

abbrev nBuf : Space → Nat
  | .hbm => 154
  | .vmem => 0
  | .smem => 0
  | _ => 0

abbrev hbmTy0_0 (i : Nat) : BufTy := match i % 128 with
  | 0 => ⟨S8192x512, .f32⟩
  | 1 => ⟨S2x262144, .i32⟩
  | 2 => ⟨S512x256, .f32⟩
  | 3 => ⟨S256, .f32⟩
  | 4 => ⟨S256x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S8192, .i32⟩
  | 11 => ⟨S1x262144, .i32⟩
  | 12 => ⟨S262144, .i32⟩
  | 13 => ⟨S270336, .i32⟩
  | 14 => ⟨S1x262144, .i32⟩
  | 15 => ⟨S262144, .i32⟩
  | 16 => ⟨S270336, .i32⟩
  | 17 => ⟨S8192, .i32⟩
  | 18 => ⟨S278528, .i32⟩
  | 19 => ⟨S278528, .i32⟩
  | 20 => ⟨S_, .f32⟩
  | 21 => ⟨S278528, .f32⟩
  | 22 => ⟨S_, .f32⟩
  | 23 => ⟨S8192, .f32⟩
  | 24 => ⟨S278528x1, .i32⟩
  | 25 => ⟨S8192, .f32⟩
  | 26 => ⟨S_, .f32⟩
  | 27 => ⟨S8192, .f32⟩
  | 28 => ⟨S8192, .i1⟩
  | 29 => ⟨S_, .f32⟩
  | 30 => ⟨S8192, .f32⟩
  | 31 => ⟨S8192, .f32⟩
  | 32 => ⟨S_, .f32⟩
  | 33 => ⟨S_, .f32⟩
  | 34 => ⟨S8192, .f32⟩
  | 35 => ⟨S8192, .f32⟩
  | 36 => ⟨S_, .i32⟩
  | 37 => ⟨S278528, .i32⟩
  | 38 => ⟨S278528, .i1⟩
  | 39 => ⟨S_, .i32⟩
  | 40 => ⟨S278528, .i32⟩
  | 41 => ⟨S278528, .i32⟩
  | 42 => ⟨S278528, .i32⟩
  | 43 => ⟨S278528x1, .i32⟩
  | 44 => ⟨S278528, .f32⟩
  | 45 => ⟨S_, .i32⟩
  | 46 => ⟨S278528, .i32⟩
  | 47 => ⟨S278528, .i1⟩
  | 48 => ⟨S_, .i32⟩
  | 49 => ⟨S278528, .i32⟩
  | 50 => ⟨S278528, .i32⟩
  | 51 => ⟨S278528, .i32⟩
  | 52 => ⟨S278528x1, .i32⟩
  | 53 => ⟨S278528, .f32⟩
  | 54 => ⟨S278528, .f32⟩
  | 55 => ⟨S8192x256, .f32⟩
  | 56 => ⟨S_, .i32⟩
  | 57 => ⟨S278528, .i32⟩
  | 58 => ⟨S278528, .i1⟩
  | 59 => ⟨S_, .i32⟩
  | 60 => ⟨S278528, .i32⟩
  | 61 => ⟨S278528, .i32⟩
  | 62 => ⟨S278528, .i32⟩
  | 63 => ⟨S278528x1, .i32⟩
  | 64 => ⟨S278528x256, .f32⟩
  | 65 => ⟨S278528x1, .f32⟩
  | 66 => ⟨S278528x256, .f32⟩
  | 67 => ⟨S278528x256, .f32⟩
  | 68 => ⟨S_, .f32⟩
  | 69 => ⟨S8192x256, .f32⟩
  | 70 => ⟨S278528x1, .i32⟩
  | 71 => ⟨S8192x256, .f32⟩
  | 72 => ⟨S1x256, .f32⟩
  | 73 => ⟨S8192x256, .f32⟩
  | 74 => ⟨S8192x256, .f32⟩
  | 75 => ⟨S_, .f32⟩
  | 76 => ⟨S8192x256, .f32⟩
  | 77 => ⟨S8192x256, .f32⟩
  | 78 => ⟨S8192, .i32⟩
  | 79 => ⟨S278528, .i32⟩
  | 80 => ⟨S278528, .i32⟩
  | 81 => ⟨S_, .f32⟩
  | 82 => ⟨S278528, .f32⟩
  | 83 => ⟨S_, .f32⟩
  | 84 => ⟨S8192, .f32⟩
  | 85 => ⟨S278528x1, .i32⟩
  | 86 => ⟨S8192, .f32⟩
  | 87 => ⟨S_, .f32⟩
  | 88 => ⟨S8192, .f32⟩
  | 89 => ⟨S8192, .i1⟩
  | 90 => ⟨S_, .f32⟩
  | 91 => ⟨S8192, .f32⟩
  | 92 => ⟨S8192, .f32⟩
  | 93 => ⟨S_, .f32⟩
  | 94 => ⟨S_, .f32⟩
  | 95 => ⟨S8192, .f32⟩
  | 96 => ⟨S8192, .f32⟩
  | 97 => ⟨S_, .i32⟩
  | 98 => ⟨S278528, .i32⟩
  | 99 => ⟨S278528, .i1⟩
  | 100 => ⟨S_, .i32⟩
  | 101 => ⟨S278528, .i32⟩
  | 102 => ⟨S278528, .i32⟩
  | 103 => ⟨S278528, .i32⟩
  | 104 => ⟨S278528x1, .i32⟩
  | 105 => ⟨S278528, .f32⟩
  | 106 => ⟨S_, .i32⟩
  | 107 => ⟨S278528, .i32⟩
  | 108 => ⟨S278528, .i1⟩
  | 109 => ⟨S_, .i32⟩
  | 110 => ⟨S278528, .i32⟩
  | 111 => ⟨S278528, .i32⟩
  | 112 => ⟨S278528, .i32⟩
  | 113 => ⟨S278528x1, .i32⟩
  | 114 => ⟨S278528, .f32⟩
  | 115 => ⟨S278528, .f32⟩
  | 116 => ⟨S8192x128, .f32⟩
  | 117 => ⟨S_, .i32⟩
  | 118 => ⟨S278528, .i32⟩
  | 119 => ⟨S278528, .i1⟩
  | 120 => ⟨S_, .i32⟩
  | 121 => ⟨S278528, .i32⟩
  | 122 => ⟨S278528, .i32⟩
  | 123 => ⟨S278528, .i32⟩
  | 124 => ⟨S278528x1, .i32⟩
  | 125 => ⟨S278528x128, .f32⟩
  | 126 => ⟨S278528x1, .f32⟩
  | 127 => ⟨S278528x128, .f32⟩
  | _ => ⟨S8192x512, .f32⟩

abbrev hbmTy0_1 (i : Nat) : BufTy := match i % 128 with
  | 0 => ⟨S278528x128, .f32⟩
  | 1 => ⟨S_, .f32⟩
  | 2 => ⟨S8192x128, .f32⟩
  | 3 => ⟨S278528x1, .i32⟩
  | 4 => ⟨S8192x128, .f32⟩
  | 5 => ⟨S1x128, .f32⟩
  | 6 => ⟨S8192x128, .f32⟩
  | 7 => ⟨S8192x128, .f32⟩
  | 8 => ⟨S8192x128, .f32⟩
  | 9 => ⟨S1x128, .f32⟩
  | 10 => ⟨S8192x128, .f32⟩
  | 11 => ⟨S8192x128, .f32⟩
  | 12 => ⟨S8192x128, .f32⟩
  | 13 => ⟨S1x128, .f32⟩
  | 14 => ⟨S8192x128, .f32⟩
  | 15 => ⟨S8192x128, .f32⟩
  | 16 => ⟨S128x8192, .f32⟩
  | 17 => ⟨S8192x8192, .f32⟩
  | 18 => ⟨S8192x8192, .f32⟩
  | 19 => ⟨S8192x8192, .f32⟩
  | 20 => ⟨S_, .f32⟩
  | 21 => ⟨S8192x8192, .f32⟩
  | 22 => ⟨S8192x8192, .f32⟩
  | 23 => ⟨S_, .f32⟩
  | 24 => ⟨S8192x8192, .f32⟩
  | 25 => ⟨S8192x8192, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v63 : Ref sig .tc := ⟨.hbm, 96, rfl⟩
abbrev main_c_15 : Ref sig .tc := ⟨.hbm, 97, rfl⟩
abbrev main_v64 : Ref sig .tc := ⟨.hbm, 98, rfl⟩
abbrev main_v65 : Ref sig .tc := ⟨.hbm, 99, rfl⟩
abbrev main_c_16 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_17 : Ref sig .tc := ⟨.hbm, 106, rfl⟩
abbrev main_v71 : Ref sig .tc := ⟨.hbm, 107, rfl⟩
abbrev main_v72 : Ref sig .tc := ⟨.hbm, 108, rfl⟩
abbrev main_c_18 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_19 : Ref sig .tc := ⟨.hbm, 117, rfl⟩
abbrev main_v80 : Ref sig .tc := ⟨.hbm, 118, rfl⟩
abbrev main_v81 : Ref sig .tc := ⟨.hbm, 119, rfl⟩
abbrev main_c_20 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_21 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_22 : Ref sig .tc := ⟨.hbm, 148, rfl⟩
abbrev main_v108 : Ref sig .tc := ⟨.hbm, 149, rfl⟩
abbrev main_v109 : Ref sig .tc := ⟨.hbm, 150, rfl⟩
abbrev main_cst_23 : Ref sig .tc := ⟨.hbm, 151, rfl⟩
abbrev main_v110 : Ref sig .tc := ⟨.hbm, 152, rfl⟩
abbrev main_v111 : Ref sig .tc := ⟨.hbm, 153, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  concatenates_S270336_S8192_S278528_d0 : Shape.Concatenates [S270336, S8192] S278528 0
  bcast_S_S278528 : S_.BroadcastsInDim S278528 (![] : Fin 0 → Fin S278528.rank)
  bcast_S_S8192 : S_.BroadcastsInDim S8192 (![] : Fin 0 → Fin S8192.rank)
  bcast_S278528_S278528x1_0 : S278528.BroadcastsInDim S278528x1 (![0] : Fin 1 → Fin S278528x1.rank)
  bcast_S278528x1_S278528x256_0_1 : S278528x1.BroadcastsInDim S278528x256 (![0, 1] : Fin 2 → Fin S278528x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S278528x1_S278528x128_0_1 : S278528x1.BroadcastsInDim S278528x128 (![0, 1] : Fin 2 → Fin S278528x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  scatter_S8192_S278528x1_S278528_n_0_0_1_wf : ScatterDims.WF S8192 S278528x1 S278528 [] [0] [0] 1
  gather_S8192_S278528x1_S278528_n_0_n_n_0_1_1_wf : GatherDims.WF S8192 S278528x1 S278528 [] [0] [] [0] [] 1 ![1]
  dot_S8192x512_S512x256_S8192x256_1_0_0_1_n_n_wf : DotDims.WF S8192x512 S512x256 S8192x256 [1] [0] [0] [1] [] []
  gather_S8192x256_S278528x1_S278528x256_1_0_n_n_0_1_1256_wf : GatherDims.WF S8192x256 S278528x1 S278528x256 [1] [0] [] [0] [] 1 ![1, 256]
  scatter_S8192x256_S278528x1_S278528x256_1_0_0_1_wf : ScatterDims.WF S8192x256 S278528x1 S278528x256 [1] [0] [0] 1
  dot_S8192x256_S256x128_S8192x128_1_0_0_1_n_n_wf : DotDims.WF S8192x256 S256x128 S8192x128 [1] [0] [0] [1] [] []
  gather_S8192x128_S278528x1_S278528x128_1_0_n_n_0_1_1128_wf : GatherDims.WF S8192x128 S278528x1 S278528x128 [1] [0] [] [0] [] 1 ![1, 128]
  scatter_S8192x128_S278528x1_S278528x128_1_0_0_1_wf : ScatterDims.WF S8192x128 S278528x1 S278528x128 [1] [0] [0] 1
  dot_S8192x128_S128x128_S8192x128_1_0_0_1_n_n_wf : DotDims.WF S8192x128 S128x128 S8192x128 [1] [0] [0] [1] [] []
  dot_S8192x128_S128x8192_S8192x8192_1_0_0_1_n_n_wf : DotDims.WF S8192x128 S128x8192 S8192x8192 [1] [0] [0] [1] [] []

variable [Facts₀]

def scatter_S8192_S278528x1_S278528_n_0_0_1 : ScatterDims S8192 S278528x1 S278528 where
  updateWindowDims := []
  insertedWindowDims := [0]
  scatterDimsToOperandDims := [0]
  indexVectorDim := 1
  wf := scatter_S8192_S278528x1_S278528_n_0_0_1_wf
def gather_S8192_S278528x1_S278528_n_0_n_n_0_1_1 : GatherDims S8192 S278528x1 S278528 where
  offsetDims := []
  collapsedSliceDims := [0]
  operandBatchingDims := []
  startIndicesBatchingDims := []
  startIndexMap := [0]
  indexVectorDim := 1
  sliceSizes := ![1]
  wf := gather_S8192_S278528x1_S278528_n_0_n_n_0_1_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S278528x1_S278528x256_1_0_n_n_0_1_1256 : GatherDims S8192x256 S278528x1 S278528x256 where
  offsetDims := [1]
  collapsedSliceDims := [0]
  operandBatchingDims := []
  startIndicesBatchingDims := []
  startIndexMap := [0]
  indexVectorDim := 1
  sliceSizes := ![1, 256]
  wf := gather_S8192x256_S278528x1_S278528x256_1_0_n_n_0_1_1256_wf
def scatter_S8192x256_S278528x1_S278528x256_1_0_0_1 : ScatterDims S8192x256 S278528x1 S278528x256 where
  updateWindowDims := [1]
  insertedWindowDims := [0]
  scatterDimsToOperandDims := [0]
  indexVectorDim := 1
  wf := scatter_S8192x256_S278528x1_S278528x256_1_0_0_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S278528x1_S278528x128_1_0_n_n_0_1_1128 : GatherDims S8192x128 S278528x1 S278528x128 where
  offsetDims := [1]
  collapsedSliceDims := [0]
  operandBatchingDims := []
  startIndicesBatchingDims := []
  startIndexMap := [0]
  indexVectorDim := 1
  sliceSizes := ![1, 128]
  wf := gather_S8192x128_S278528x1_S278528x128_1_0_n_n_0_1_1128_wf
def scatter_S8192x128_S278528x1_S278528x128_1_0_0_1 : ScatterDims S8192x128 S278528x1 S278528x128 where
  updateWindowDims := [1]
  insertedWindowDims := [0]
  scatterDimsToOperandDims := [0]
  indexVectorDim := 1
  wf := scatter_S8192x128_S278528x1_S278528x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.HostBits.lean ====
/-
  The host part of the kernel program as printed, up to its one kernel region.

  @main computes, by 130 host operations in seven stretches (the two-layer graph convolution: degrees by a scatter-add
  of ones, symmetric normalisation, gather, scale, scatter-add, bias, relu; then the two linear heads), the latent
  means `mu` and the log-variances, and then launches the decoder kernel on `mu` twice. Here: the contents `V` of
  every buffer when the region is entered (the fold of all those operations over the launch memory, never
  unfolded), that @main reaches the region holding the unscoped buffers at `V`, and that no host operation writes
  an argument array.
-/
import proofs.«136421_j9740985827608_1_alg».proof.Proof.Gen.Kernel.Launch
import proofs.«136421_j9740985827608_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- The seven stretches of host operations before the region, in order. -/
abbrev stretches : List (List (HloOp τ sig (Elt F))) :=
  [hostOps0, hostOps0_1, hostOps0_2, hostOps0_3, hostOps0_4, hostOps0_5, hostOps0_6]

/-- Core `c`'s buffers when the region is entered: after every host operation, from the launch memory. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

set_option maxHeartbeats 2000000 in
theorem stretches_fresh : (stretches (F := F)).Forall fun ops => ops.Forall fun op => op.fresh = ∅ := by
  simp only [List.Forall]; repeat' constructor

/-- @main up to the region: the host stretches one after the other, then the region, which is entered holding the
    unscoped buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh (fun c => (main_chain c).trans rfl)

set_option maxHeartbeats 2000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.Kernel.Hand

end
-- ==== Proof.BodyBits.lean ====
/-
  The decoder kernel's body, run once on whole staging buffers.

  The body loads a 1024×128 block of rows `a` and a 1024×128 block of rows `b` of the latent means, forms the
  1024×1024 block `logistic(a bᵀ)` (rounding to bf16 on the way into the matrix unit, accumulating into zeros) and
  stores it over the whole output buffer. It also loads the output buffer's previous contents and drops them. So
  after the body the two input buffers hold what they held and the output buffer holds that one payload, whatever
  it held before.
-/
import proofs.«136421_j9740985827608_1_alg».proof.Proof.Gen.Kernel.Launch
import proofs.«136421_j9740985827608_1_alg».proof.Proof.Gen.Kernel.Skeleton
import proofs.«136421_j9740985827608_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole of a 1024×128 input buffer, as the rectangle the body loads. -/
abbrev rIn : Rect S1024x128 := Rect.unit (s := S1024x128) ![0, 0] S1024x128.size inb_S1024x128_S1024x128_0_0
/-- The whole of the 1024×1024 output buffer, as the rectangle the body stores. -/
abbrev rOut : Rect S1024x1024 := Rect.unit (s := S1024x1024) ![0, 0] S1024x1024.size inb_S1024x1024_S1024x1024_0_0

/-- What the output buffer holds after the body, from the two input buffers' contents: its one store, over the
    payload `logistic(a bᵀ)` of the two loaded blocks. -/
def outBlock (x0 : Vec F S1024x128 .f32) (x1 : Vec F S1024x128 .f32) : Vec F S1024x1024 .f32 :=
  View.canon [⟨rOut, k0_pay1 (View.ld x0 rIn) (View.ld x1 rIn)⟩]

/-- The one store covers the output buffer. -/
theorem outCover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The body on whole staging memrefs, the inputs' at read contents `x0`, `x1` and the output's at anything, runs to
    the continuation holding the inputs' as they were and the output's at `outBlock x0 x1`. -/
theorem sound_kernel (c : Dev nD) (E : Set ℕ) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1024 .f32) (harg4 : arg4.IsWhole)
    (x0 : Vec F S1024x128 .f32) (x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

end Cert.Kernel.Hand

end
-- ==== Proof.LibSharedFrame.lean ====
/-
  The frame run of a program with ONE kernel region whose input windows may read THE SAME array.

  Setting: on each core, @main is host operations, then one pipelined kernel region on a static grid, then the
  return. The kernel has no semaphore, transfer or scratch protocol of its own; the only thing it carries from one
  grid point to the next is what the pipeline itself accounts for (its staging buffers). Several of its INPUT
  windows may be blocks of one and the same array (a Gram matrix `x xᵀ` reads `x` through a row window and a
  column window); an output window never shares its array.

  What changes against the case of pairwise distinct arrays is only how the arrays are handed to the pipeline at
  the region's entry: instead of "each window's array whole at the full share", the certificate says how the
  DISTINCT buffers behind the windows, each whole at the full share at the entry contents, are dealt among the
  windows (`hsplit`): an array read by two windows is split into two read shares. Everything else is the plain
  frame run: the region invariant is "the core's other scoped buffers at some contents" (nothing is carried between
  points), the buffers no window stages bypass the region and are read back unchanged, and the final contents of
  every window's array are what the pipeline's write-backs leave (`Dat.arrAt … N`): for an input, its entry
  contents; for an output, the entry contents overwritten block by block by what the body left.
-/
import Idealize.ShloMosaic.Lib.Pipeline.Frame

noncomputable section

namespace Cert.LibSharedFrame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- A buffer held whole at the full share is the same buffer held twice, at the left and at the right half of the
    full share, at the same contents: how one array is lent to two windows that only read it. -/
theorem pointsTo_halves {ℓ : Loc nD τ sig} (I : Finset (Idx ℓ)) (f : Buf Val ℓ) :
    (ℓ ↦[I]{fullShare} f : sProp 𝕄) ⊣⊢ iprop((ℓ ↦[I]{fullShare.left} f) ∗ ℓ ↦[I]{fullShare.right} f) :=
  pointsTo_share (PosShare.mem_left_op_right fullShare)

/-- THE FRAME RUN when windows may share arrays. For proof data `dats` whose invariant is, at every point, the core's
    scoped buffers that are no staging buffer at some contents (`hΦ`), which owe nothing (`howed`), whose body
    obligation holds at every point (`hbody`), for @main reaching the region with the unscoped buffers at `V`
    (`hmain`), and for a dealing of the distinct buffers behind the windows' arrays, at `V`, into the windows'
    shares at the data's entry contents (`hsplit`): every weakly fair execution of @main terminates, and in its
    final state every window's array holds what the pipeline's write-backs leave of the data, every other unscoped
    buffer what it held at the region's entry. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t
      = (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) ⟨m, fun _ => 0, g⟩
      (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩
      iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.LibSharedFrame

end
-- ==== Proof.FrameBits.lean ====
/-
  The frame of the kernel program as printed: it runs to the end, faults nowhere, and leaves its arguments unchanged.

  The decoder region reads the latent means `mu` through TWO windows (a block of 1024 rows chosen by the first grid
  coordinate, a block of 1024 rows chosen by the second) and writes the 8192×8192 adjacency through a third, block
  (i, j) at grid point (i, j). The two input windows are blocks of one array, so at the region's entry the buffer of
  `mu`, held whole, is split into two read shares, one per window; the output array is held whole. After the body at
  a point each input buffer holds its block still and the output buffer holds `logistic(a bᵀ)` of the two blocks.
-/
import proofs.«136421_j9740985827608_1_alg».proof.Proof.HostBits
import proofs.«136421_j9740985827608_1_alg».proof.Proof.BodyBits
import proofs.«136421_j9740985827608_1_alg».proof.Proof.LibSharedFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row window's staging buffer holds its block at every point, fetched there or not (it is fetched only when the
    first grid coordinate moves): for any proof data whose array is `V`'s and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the column window. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the one pipeline on core `c`: the arrays as the region finds them; after the body at point `t`
    each input's buffer at its block and the output's at `outBlock` of the two blocks; nothing carried between points
    but the scoped rest; nothing owed; the array of the latent means read by window 0 at the left half of the full
    share and by window 1 at the right half. -/
def datW (c : Dev nD) (W : (b : Ref sig .tc) → Buf (Elt F) ((c.tc : Thread nD τ).loc b))
    (aft : (w : Fin cfg0.W) → (t : Fin cfg0.N) → (cfg0.win w).block.Idx → Elt F (cfg0.win w).elt) :
    Dat τ (Elt F) Unit ℕ (UR sig nD τ) ℕ cfg0 c where
  A w := W (Pipeline.arrRef spec0 w)
  after := aft
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

def dats (_ : Fin 1) (c : Dev nD) : Dat τ (Elt F) Unit ℕ (UR sig nD τ) ℕ cfg0 c :=
  datW c (V m c) (fun w t => match w with
    | ⟨0, _⟩ => iblk m c 0 t
    | ⟨1, _⟩ => iblk m c 1 t
    | ⟨2, _⟩ => outBlock (iblk m c 0 t) (iblk m c 1 t))

theorem A_eq (c : Dev nD) (w : Fin cfg0.W) : (dats m 0 c).A w = V m c (Pipeline.arrRef spec0 w) := by
  dsimp only [dats, datW]

theorem after0 (c : Dev nD) (t : Fin cfg0.N) : (dats m 0 c).after 0 t = iblk m c 0 t := by dsimp only [dats, datW]
theorem after1 (c : Dev nD) (t : Fin cfg0.N) : (dats m 0 c).after 1 t = iblk m c 1 t := by dsimp only [dats, datW]
theorem after2 (c : Dev nD) (t : Fin cfg0.N) : (dats m 0 c).after 2 t = outBlock (iblk m c 0 t) (iblk m c 1 t) := by dsimp only [dats, datW]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The arrays at the region's entry -/

/-- The buffers behind the windows' arrays are two: the latent means' and the adjacency's. -/
theorem arr_image : (Finset.univ.image (Pipeline.arrRef spec0) : Finset (Ref sig .tc)) = {main_v99, main_v104} := by decide

/-- The two buffers, each whole at the full share at `V`, dealt to the three windows: the latent means' split into its
    two halves for the two input windows, the adjacency's whole for the output window. -/
theorem hsplitW (c : Dev nD) (W : (b : Ref sig .tc) → Buf (Elt F) ((c.tc : Thread nD τ).loc b))
    (aft : (w : Fin cfg0.W) → (t : Fin cfg0.N) → (cfg0.win w).block.Idx → Elt F (cfg0.win w).elt) :
    (Pipeline.arrBufs (Ix := Unit) (Name := ℕ) (U := UR sig nD τ) (Lvl := ℕ) spec0 c W : sProp 𝕄)
      ⊢ (datW c W aft).arrays ((datW c W aft).arrAt · 0) := by
  have harrays : (datW c W aft).arrays ((datW c W aft).arrAt · 0)
      = bigSep Finset.univ fun w : Fin cfg0.W => (((c.tc : Thread nD τ).loc (Pipeline.arrRef spec0 w))
          ↦{(datW c W aft).share w} (datW c W aft).arrAt w 0 : sProp 𝕄) := by
    unfold Dat.arrays
    exact bigSep_congr fun w _ => by rw [(arr_whole0 w).set_eq_univ]
  rw [harrays]
  unfold Pipeline.arrBufs
  rw [arr_image, bigSep_W0, bigSep_insert (by decide), bigSep_singleton]
  refine (show iprop((((c.tc : Thread nD τ).loc main_v99) ↦{fullShare} W main_v99)
      ∗ (((c.tc : Thread nD τ).loc main_v104) ↦{fullShare} W main_v104)) ⊢ _ from ?_)
  iintro ⟨Hmu, Hout⟩
  ihave Hs := (Cert.LibSharedFrame.pointsTo_halves _ _).1 $$ Hmu
  icases Hs with ⟨Hl, Hr⟩
  isplitl [Hl]; · iexact Hl
  isplitl [Hr]; · iexact Hr
  iexact Hout

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  hsplitW c (V m c) _

/-! ## The run and the frame -/

set_option backward.isDefEq.respectTransparency.types false in
/-- Every weakly fair execution of @main terminates, and every final state has every array of the pipeline at what the
    write-backs leave and every other unscoped buffer as the region found it. -/
theorem run_main : θ_run defs (onTc (τ := τ) (main (F := F))) ⟨m, fun _ => 0, ρ⟩ (Pipeline.FramePost cfgs (dats m) 0 (V m)) :=
  Cert.LibSharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- THE FRAME: the argument arrays end as launched. Arguments no window stages bypass the region; no host operation
    writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).2 main_arg6 (Pipeline.mem_restRefs_of main_arg6 (by decide) (by decide))).trans (V_main_arg6 m c),
     ((h c).2 main_arg7 (Pipeline.mem_restRefs_of main_arg7 (by decide) (by decide))).trans (V_main_arg7 m c),
     ((h c).2 main_arg8 (Pipeline.mem_restRefs_of main_arg8 (by decide) (by decide))).trans (V_main_arg8 m c),
     ((h c).2 main_arg9 (Pipeline.mem_restRefs_of main_arg9 (by decide) (by decide))).trans (V_main_arg9 m c)⟩)
    (run_main m ρ)

end Cert.Kernel.Hand

end
-- ==== Proof.HostIdeal.lean ====
/-
  The host part of the idealized kernel program, up to its one kernel region.

  @main computes, by 130 host operations in seven stretches (the two-layer graph convolution: degrees by a scatter-add
  of ones, symmetric normalisation, gather, scale, scatter-add, bias, relu; then the two linear heads), the latent
  means `mu` and the log-variances, and then launches the decoder kernel on `mu` twice. Here: the contents `V` of
  every buffer when the region is entered (the fold of all those operations over the launch memory, never
  unfolded), that @main reaches the region holding the unscoped buffers at `V`, and that no host operation writes
  an argument array.
-/
import proofs.«136421_j9740985827608_1_alg».proof.Proof.Gen.KernelIdeal.Launch
import proofs.«136421_j9740985827608_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The seven stretches of host operations before the region, in order. -/
abbrev stretches : List (List (HloOp τ sig (Elt F))) :=
  [hostOps0, hostOps0_1, hostOps0_2, hostOps0_3, hostOps0_4, hostOps0_5, hostOps0_6]

/-- Core `c`'s buffers when the region is entered: after every host operation, from the launch memory. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

set_option maxHeartbeats 2000000 in
theorem stretches_fresh : (stretches (F := F)).Forall fun ops => ops.Forall fun op => op.fresh = ∅ := by
  simp only [List.Forall]; repeat' constructor

/-- @main up to the region: the host stretches one after the other, then the region, which is entered holding the
    unscoped buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh (fun c => (main_chain c).trans rfl)

set_option maxHeartbeats 2000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Hand

end
-- ==== Proof.BodyIdeal.lean ====
/-
  The decoder kernel's body, run once on whole staging buffers.

  The body loads a 1024×128 block of rows `a` and a 1024×128 block of rows `b` of the latent means, forms the
  1024×1024 block `logistic(a bᵀ)` (rounding to bf16 on the way into the matrix unit, accumulating into zeros) and
  stores it over the whole output buffer. It also loads the output buffer's previous contents and drops them. So
  after the body the two input buffers hold what they held and the output buffer holds that one payload, whatever
  it held before.
-/
import proofs.«136421_j9740985827608_1_alg».proof.Proof.Gen.KernelIdeal.Launch
import proofs.«136421_j9740985827608_1_alg».proof.Proof.Gen.KernelIdeal.Skeleton
import proofs.«136421_j9740985827608_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole of a 1024×128 input buffer, as the rectangle the body loads. -/
abbrev rIn : Rect S1024x128 := Rect.unit (s := S1024x128) ![0, 0] S1024x128.size inb_S1024x128_S1024x128_0_0
/-- The whole of the 1024×1024 output buffer, as the rectangle the body stores. -/
abbrev rOut : Rect S1024x1024 := Rect.unit (s := S1024x1024) ![0, 0] S1024x1024.size inb_S1024x1024_S1024x1024_0_0

/-- What the output buffer holds after the body, from the two input buffers' contents: its one store, over the
    payload `logistic(a bᵀ)` of the two loaded blocks. -/
def outBlock (x0 : Vec F S1024x128 .f32) (x1 : Vec F S1024x128 .f32) : Vec F S1024x1024 .f32 :=
  View.canon [⟨rOut, k0_pay1 (View.ld x0 rIn) (View.ld x1 rIn)⟩]

/-- The one store covers the output buffer. -/
theorem outCover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The body on whole staging memrefs, the inputs' at read contents `x0`, `x1` and the output's at anything, runs to
    the continuation holding the inputs' as they were and the output's at `outBlock x0 x1`. -/
theorem sound_kernel (c : Dev nD) (E : Set ℕ) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1024 .f32) (harg4 : arg4.IsWhole)
    (x0 : Vec F S1024x128 .f32) (x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

end Cert.KernelIdeal.Hand

end
-- ==== Proof.FrameIdeal.lean ====
/-
  The frame of the idealized kernel program: it runs to the end, faults nowhere, and leaves its arguments unchanged.

  The decoder region reads the latent means `mu` through TWO windows (a block of 1024 rows chosen by the first grid
  coordinate, a block of 1024 rows chosen by the second) and writes the 8192×8192 adjacency through a third, block
  (i, j) at grid point (i, j). The two input windows are blocks of one array, so at the region's entry the buffer of
  `mu`, held whole, is split into two read shares, one per window; the output array is held whole. After the body at
  a point each input buffer holds its block still and the output buffer holds `logistic(a bᵀ)` of the two blocks.
-/
import proofs.«136421_j9740985827608_1_alg».proof.Proof.HostIdeal
import proofs.«136421_j9740985827608_1_alg».proof.Proof.BodyIdeal
import proofs.«136421_j9740985827608_1_alg».proof.Proof.LibSharedFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row window's staging buffer holds its block at every point, fetched there or not (it is fetched only when the
    first grid coordinate moves): for any proof data whose array is `V`'s and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the column window. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the one pipeline on core `c`: the arrays as the region finds them; after the body at point `t`
    each input's buffer at its block and the output's at `outBlock` of the two blocks; nothing carried between points
    but the scoped rest; nothing owed; the array of the latent means read by window 0 at the left half of the full
    share and by window 1 at the right half. -/
def datW (c : Dev nD) (W : (b : Ref sig .tc) → Buf (Elt F) ((c.tc : Thread nD τ).loc b))
    (aft : (w : Fin cfg0.W) → (t : Fin cfg0.N) → (cfg0.win w).block.Idx → Elt F (cfg0.win w).elt) :
    Dat τ (Elt F) Unit ℕ (UR sig nD τ) ℕ cfg0 c where
  A w := W (Pipeline.arrRef spec0 w)
  after := aft
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

def dats (_ : Fin 1) (c : Dev nD) : Dat τ (Elt F) Unit ℕ (UR sig nD τ) ℕ cfg0 c :=
  datW c (V m c) (fun w t => match w with
    | ⟨0, _⟩ => iblk m c 0 t
    | ⟨1, _⟩ => iblk m c 1 t
    | ⟨2, _⟩ => outBlock (iblk m c 0 t) (iblk m c 1 t))

theorem A_eq (c : Dev nD) (w : Fin cfg0.W) : (dats m 0 c).A w = V m c (Pipeline.arrRef spec0 w) := by
  dsimp only [dats, datW]

theorem after0 (c : Dev nD) (t : Fin cfg0.N) : (dats m 0 c).after 0 t = iblk m c 0 t := by dsimp only [dats, datW]
theorem after1 (c : Dev nD) (t : Fin cfg0.N) : (dats m 0 c).after 1 t = iblk m c 1 t := by dsimp only [dats, datW]
theorem after2 (c : Dev nD) (t : Fin cfg0.N) : (dats m 0 c).after 2 t = outBlock (iblk m c 0 t) (iblk m c 1 t) := by dsimp only [dats, datW]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The arrays at the region's entry -/

/-- The buffers behind the windows' arrays are two: the latent means' and the adjacency's. -/
theorem arr_image : (Finset.univ.image (Pipeline.arrRef spec0) : Finset (Ref sig .tc)) = {main_v99, main_v104} := by decide

/-- The two buffers, each whole at the full share at `V`, dealt to the three windows: the latent means' split into its
    two halves for the two input windows, the adjacency's whole for the output window. -/
theorem hsplitW (c : Dev nD) (W : (b : Ref sig .tc) → Buf (Elt F) ((c.tc : Thread nD τ).loc b))
    (aft : (w : Fin cfg0.W) → (t : Fin cfg0.N) → (cfg0.win w).block.Idx → Elt F (cfg0.win w).elt) :
    (Pipeline.arrBufs (Ix := Unit) (Name := ℕ) (U := UR sig nD τ) (Lvl := ℕ) spec0 c W : sProp 𝕄)
      ⊢ (datW c W aft).arrays ((datW c W aft).arrAt · 0) := by
  have harrays : (datW c W aft).arrays ((datW c W aft).arrAt · 0)
      = bigSep Finset.univ fun w : Fin cfg0.W => (((c.tc : Thread nD τ).loc (Pipeline.arrRef spec0 w))
          ↦{(datW c W aft).share w} (datW c W aft).arrAt w 0 : sProp 𝕄) := by
    unfold Dat.arrays
    exact bigSep_congr fun w _ => by rw [(arr_whole0 w).set_eq_univ]
  rw [harrays]
  unfold Pipeline.arrBufs
  rw [arr_image, bigSep_W0, bigSep_insert (by decide), bigSep_singleton]
  refine (show iprop((((c.tc : Thread nD τ).loc main_v99) ↦{fullShare} W main_v99)
      ∗ (((c.tc : Thread nD τ).loc main_v104) ↦{fullShare} W main_v104)) ⊢ _ from ?_)
  iintro ⟨Hmu, Hout⟩
  ihave Hs := (Cert.LibSharedFrame.pointsTo_halves _ _).1 $$ Hmu
  icases Hs with ⟨Hl, Hr⟩
  isplitl [Hl]; · iexact Hl
  isplitl [Hr]; · iexact Hr
  iexact Hout

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  hsplitW c (V m c) _

/-! ## The run and the frame -/

set_option backward.isDefEq.respectTransparency.types false in
/-- Every weakly fair execution of @main terminates, and every final state has every array of the pipeline at what the
    write-backs leave and every other unscoped buffer as the region found it. -/
theorem run_main : θ_run defs (onTc (τ := τ) (main (F := F))) ⟨m, fun _ => 0, ρ⟩ (Pipeline.FramePost cfgs (dats m) 0 (V m)) :=
  Cert.LibSharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- THE FRAME: the argument arrays end as launched. Arguments no window stages bypass the region; no host operation
    writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).2 main_arg6 (Pipeline.mem_restRefs_of main_arg6 (by decide) (by decide))).trans (V_main_arg6 m c),
     ((h c).2 main_arg7 (Pipeline.mem_restRefs_of main_arg7 (by decide) (by decide))).trans (V_main_arg7 m c),
     ((h c).2 main_arg8 (Pipeline.mem_restRefs_of main_arg8 (by decide) (by decide))).trans (V_main_arg8 m c),
     ((h c).2 main_arg9 (Pipeline.mem_restRefs_of main_arg9 (by decide) (by decide))).trans (V_main_arg9 m c)⟩)
    (run_main m ρ)

end Cert.KernelIdeal.Hand

end
-- ==== Proof.PayloadIdeal.lean ====
/-
  The decoder's payload at an index, over the extended reals.

  At the ideal instance the rounding to bf16 on the way into the matrix unit is the identity, the shape casts are of a
  shape to itself, the transpose swaps the two coordinates, the matrix unit accumulating into zeros is the plain sum
  over the contracted axis, and `tpu.logistic` is the logistic function. So entry (p, q) of the stored block is the
  logistic function of the inner product of row p of the first loaded block with row q of the second.
-/
import proofs.«136421_j9740985827608_1_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.SL.Sem
open Cert.KernelIdeal Cert.KernelIdeal.Gen

/-! ## The matrix unit's operand indices, axis by axis -/

theorem lhs_mm_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_mm_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs_mm_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs_mm_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The left operand's index at output index `i` and contraction index `k`: row `i 0`, column `k`. -/
abbrev lidx (i : S1024x1024.Idx) (k : Fin 128) : S1024x128.Idx := fun a => match a with
  | ⟨0, _⟩ => ⟨(i 0).val, (i 0).isLt⟩
  | ⟨1, _⟩ => ⟨k.val, k.isLt⟩
/-- The right (transposed) operand's index: row `k`, column `i 1`. -/
abbrev ridx (i : S1024x1024.Idx) (k : Fin 128) : S128x1024.Idx := fun a => match a with
  | ⟨0, _⟩ => ⟨k.val, k.isLt⟩
  | ⟨1, _⟩ => ⟨(i 1).val, (i 1).isLt⟩
/-- The index of the untransposed second block that the transposed operand reads at `ridx i k`: row `i 1`, column `k`. -/
abbrev tidx (i : S1024x1024.Idx) (k : Fin 128) : S1024x128.Idx := fun a => match a with
  | ⟨0, _⟩ => ⟨(i 1).val, (i 1).isLt⟩
  | ⟨1, _⟩ => ⟨k.val, k.isLt⟩

/-- The matrix unit into zeros, read at an index: the sum over the 128 contracted coordinates. -/
theorem matmul_zero_apply (a : FVec Ideal S1024x128 .bf16) (b : FVec Ideal S128x1024 .bf16) (i : S1024x1024.Idx) :
    matmul (F := Ideal) dot_S1024x128_S128x1024_S1024x1024_1_0_0_1_n_n none a b (constant (F := Ideal) S1024x1024 .f32 0x00000000#32) i
      = ∑ k : Fin 128, a (lidx i k) * b (ridx i k) := by
  show FloatOps.matmul dot_S1024x128_S128x1024_S1024x1024_1_0_0_1_n_n none a b (constant (F := Ideal) S1024x1024 .f32 0x00000000#32) i = _
  rw [Ideal.matmul_constant_zero_apply, ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx i ((ValueIdx.contrEquiv1 dot_S1024x128_S128x1024_S1024x1024_1_0_0_1_n_n 128 rfl rfl).symm k) = lidx i k := funext fun a => Fin.ext (by
    match a with
    | ⟨0, _⟩ => exact lhs_mm_0 _ _
    | ⟨1, _⟩ => exact (lhs_mm_1 _ _).trans hk)
  have er : dot_S1024x128_S128x1024_S1024x1024_1_0_0_1_n_n.rhsIdx i ((ValueIdx.contrEquiv1 dot_S1024x128_S128x1024_S1024x1024_1_0_0_1_n_n 128 rfl rfl).symm k) = ridx i k := funext fun a => Fin.ext (by
    match a with
    | ⟨0, _⟩ => exact (rhs_mm_0 _ _).trans hk
    | ⟨1, _⟩ => exact rhs_mm_1 _ _)
  rw [el, er]

/-- The transposed second block at `ridx i k` is the block at `tidx i k`. -/
theorem transpose_ridx (y : FVec Ideal S1024x128 .bf16) (i : S1024x1024.Idx) (k : Fin 128) :
    transpose S128x1024 [1, 0] y transposes_S1024x128_p1_0_S128x1024 (ridx i k) = y (tidx i k) :=
  transpose_apply [1, 0] y transposes_S1024x128_p1_0_S128x1024 (ridx i k) (tidx i k) (fun b => match b with
    | ⟨0, _⟩ => rfl
    | ⟨1, _⟩ => rfl)

/-- THE PAYLOAD AT AN INDEX: the logistic function of the inner product of row `i 0` of the first block with row
    `i 1` of the second. -/
theorem pay_apply (x0 x1 : Vec Ideal S1024x128 .f32) (i : S1024x1024.Idx) :
    k0_pay1 (F := Ideal) x0 x1 i = Ideal.logistic (∑ k : Fin 128, x0 (lidx i k) * x1 (tidx i k)) := by
  unfold k0_pay1
  show Ideal.logistic (matmul (F := Ideal) dot_S1024x128_S128x1024_S1024x1024_1_0_0_1_n_n none _ _ (constant (F := Ideal) S1024x1024 .f32 0x00000000#32) i) = _
  refine congrArg Ideal.logistic ?_
  rw [matmul_zero_apply]
  refine Finset.sum_congr rfl fun k _ => ?_
  rw [transpose_ridx, ValueIdx.truncf_apply, ValueIdx.truncf_apply, shapeCast_self, shapeCast_self]

end Cert.KernelIdeal.Hand

end
-- ==== Proof.Spec.lean ====
import Idealize.ShloMosaic.PureOps.Ideal
import Idealize.ShloMosaic.Lib.ValueIdx

noncomputable section

namespace Cert.Spec

open Idealize.ShloMosaic

/-- The latent means: 8192 nodes, 128 coordinates each. -/
abbrev Smu : Shape := ⟨2, ![8192, 128]⟩
/-- The decoded adjacency: one entry per ordered pair of nodes. -/
abbrev Sadj : Shape := ⟨2, ![8192, 8192]⟩

/-- The inner product of node `i`'s and node `j`'s latent rows, over the extended reals. -/
def gram (mu : Smu.Idx → EReal) (i j : Fin 8192) : EReal :=
  ∑ k : Fin 128, mu (ValueIdx.ix2 i k) * mu (ValueIdx.ix2 j k)

/-- The dot-product decoder: entry `(i, j)` is the logistic function `1 / (1 + e^(-s))` of the inner product
    `s` of rows `i` and `j` of the latent means. -/
def adj (mu : Smu.Idx → EReal) : Sadj.Idx → EReal :=
  fun y => Ideal.logistic (gram mu (y 0) (y 1))

theorem adj_apply (mu : Smu.Idx → EReal) (y : Sadj.Idx) :
    adj mu y = Ideal.logistic (gram mu (y 0) (y 1)) := rfl

theorem adj_ix2 (mu : Smu.Idx → EReal) (i j : Fin 8192) :
    adj mu (ValueIdx.ix2 i j) = Ideal.logistic (gram mu i j) := rfl

end Cert.Spec

end
-- ==== Proof.ValueIdeal.lean ====
/-
  What the idealized kernel program computes: the decoded adjacency as one function of the latent means.

  Grid point (i, j) loads rows 1024 i … 1024 i + 1023 of the latent means `mu` through the first window and rows
  1024 j … 1024 j + 1023 through the second, and writes block (i, j) of the 8192×8192 result. By the payload lemma its
  entry (p, q) is the logistic function of the inner product of rows 1024 i + p and 1024 j + q of `mu`: exactly entry
  (1024 i + p, 1024 j + q) of the dot-product decoder `Spec.adj mu`. The 64 blocks tile the result, so after the run
  the result array IS `Spec.adj mu`, with `mu` the host part's value when the region is entered; `mu` itself and the
  log-variances are buffers the region does not write.
-/
import proofs.«136421_j9740985827608_1_alg».proof.Proof.FrameIdeal
import proofs.«136421_j9740985827608_1_alg».proof.Proof.PayloadIdeal
import proofs.«136421_j9740985827608_1_alg».proof.Proof.Spec
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row window follows the output's first block coordinate, the column
    window its second; neither moves along the 128 latent coordinates; the output's block coordinates are below 8. -/
theorem idx_facts : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every block of the 8×8 tiling is some grid point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- The latent means when the region is entered. -/
abbrev muAt (c : Dev nD) : Spec.Smu.Idx → EReal := V m c main_v99

/-- The row window's block at point `t` is rows `1024 · (first block coordinate) + …` of the latent means. -/
theorem iblk0_apply (c : Dev nD) (t : Fin cfg0.N) (x : S1024x128.Idx) (k : Spec.Smu.Idx)
    (hk0 : (k 0).val = win0_2.index t (0 : Fin 2) * 1024 + (x 0).val) (hk1 : (k 1).val = (x 1).val) :
    (iblk m c 0 t : Vec Ideal S1024x128 .f32) x = muAt m c k := by
  obtain ⟨e0, e1, -, -, -, -⟩ := idx_facts t
  unfold iblk
  rw [View.read_apply]
  show muAt m c _ = muAt m c k
  refine congrArg (muAt m c) (funext fun a => Fin.ext ?_)
  match a with
  | ⟨0, _⟩ => show win0_0.index t (0 : Fin 2) * 1024 + 1 * (x 0).val = (k 0).val; rw [e0, hk0]; omega
  | ⟨1, _⟩ => show win0_0.index t (1 : Fin 2) * 128 + 1 * (x 1).val = (k 1).val; rw [e1, hk1]; omega

/-- The column window's block at point `t` is rows `1024 · (second block coordinate) + …` of the latent means. -/
theorem iblk1_apply (c : Dev nD) (t : Fin cfg0.N) (x : S1024x128.Idx) (k : Spec.Smu.Idx)
    (hk0 : (k 0).val = win0_2.index t (1 : Fin 2) * 1024 + (x 0).val) (hk1 : (k 1).val = (x 1).val) :
    (iblk m c 1 t : Vec Ideal S1024x128 .f32) x = muAt m c k := by
  obtain ⟨-, -, e2, e3, -, -⟩ := idx_facts t
  unfold iblk
  rw [View.read_apply]
  show muAt m c _ = muAt m c k
  refine congrArg (muAt m c) (funext fun a => Fin.ext ?_)
  match a with
  | ⟨0, _⟩ => show win0_1.index t (0 : Fin 2) * 1024 + 1 * (x 0).val = (k 0).val; rw [e2, hk0]; omega
  | ⟨1, _⟩ => show win0_1.index t (1 : Fin 2) * 128 + 1 * (x 1).val = (k 1).val; rw [e3, hk1]; omega

/-- WHAT POINT `t` WRITES BACK is block `t` of the dot-product decoder of the latent means. -/
theorem flushed_eq (c : Dev nD) (t : Fin cfg0.N) :
    (dats m 0 c).flushed 2 t = ((cfg0.win 2).blk t).view.read (Elt Ideal) (Spec.adj (muAt m c)) := by
  show (cfg0.win 2).cut (grid0.coords t) ((dats m 0 c).after 2 t) = _
  rw [after2]
  unfold outBlock
  rw [View.canon_unit_zero hz]
  simp only [View.ld_unit_zero (S := S1024x128) hz]
  funext j
  show k0_pay1 (F := Ideal) (iblk m c 0 t) (iblk m c 1 t) j = _
  have hread : ∀ (G : S8192x8192.Idx → EReal), ((cfg0.win 2).blk t).view.read (Elt Ideal) G j = G (((cfg0.win 2).blk t).view.emb j) := fun G => by
    rw [View.read_apply]; rfl
  rw [hread]
  refine (pay_apply (iblk m c 0 t) (iblk m c 1 t) j).trans ((congrArg Ideal.logistic ?_).trans (Spec.adj_apply (muAt m c) _).symm)
  unfold Spec.gram
  refine Finset.sum_congr rfl fun k _ => ?_
  refine congrArg₂ (· * ·) (iblk0_apply m c t (lidx j k) _ ?_ ?_) (iblk1_apply m c t (tidx j k) _ ?_ ?_)
  · show win0_2.index t (0 : Fin 2) * 1024 + 1 * (j 0).val = win0_2.index t (0 : Fin 2) * 1024 + (j 0).val; omega
  · rfl
  · show win0_2.index t (1 : Fin 2) * 1024 + 1 * (j 1).val = win0_2.index t (1 : Fin 2) * 1024 + (j 1).val; omega
  · rfl

/-- An index of the result is in point `t`'s block iff each coordinate is in the block's range on its axis. -/
theorem mem_blk (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v104).slice (win0_2.rect t)).set ↔ _
  rw [View.set_slice_whole, Rect.mem_set_unit]
  exact Iff.rfl

/-- Every index of the result lies in some point's block: the point whose block coordinates are the index's
    coordinates divided by 1024. -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE RESULT ARRAY after the run: the dot-product decoder of the latent means. -/
theorem final_adj (c : Dev nD) : (dats m 0 c).arrAt 2 cfg0.N = Spec.adj (muAt m c) :=
  (dats m 0 c).arrAt_eq_of_cover 2 (Spec.adj (muAt m c)) (fun t _ => flushed_eq m c t) cover

/-- The run, read: the adjacency at the decoder of the latent means, the latent means and the log-variances at the host
    part's values, the arguments unchanged. -/
theorem value_run : θ_run defs (onTc (τ := τ) (main (F := Ideal))) ⟨m, fun _ => 0, ρ⟩ fun r => ∀ c : Dev nD,
      r.2.mem ((c.tc : Thread nD τ).loc main_v104) = Spec.adj (muAt m c)
      ∧ r.2.mem ((c.tc : Thread nD τ).loc main_v99) = V m c main_v99
      ∧ r.2.mem ((c.tc : Thread nD τ).loc main_v103) = V m c main_v103
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨((h c).1 2).trans (final_adj m c),
     ((h c).1 0).trans (((dats m 0 c).arrAt_in 0 rfl _).trans (A_eq m c 0)),
     (h c).2 main_v103 (Pipeline.mem_restRefs_of main_v103 (by decide) (by decide)),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).2 main_arg6 (Pipeline.mem_restRefs_of main_arg6 (by decide) (by decide))).trans (V_main_arg6 m c),
     ((h c).2 main_arg7 (Pipeline.mem_restRefs_of main_arg7 (by decide) (by decide))).trans (V_main_arg7 m c),
     ((h c).2 main_arg8 (Pipeline.mem_restRefs_of main_arg8 (by decide) (by decide))).trans (V_main_arg8 m c),
     ((h c).2 main_arg9 (Pipeline.mem_restRefs_of main_arg9 (by decide) (by decide))).trans (V_main_arg9 m c)⟩)
    (run_main m ρ)

end Cert.KernelIdeal.Hand

end
-- ==== Proof.RefValue.lean ====
/-
  The reference's side: its adjacency is the dot-product decoder of ITS latent means.

  The reference ends with `1 / (1 + exp(-(mu muᵀ)))`, spelt as a transpose, a `dot_general` contracting the 128 latent
  coordinates, a negation, an exponential, a sum with the splat of 1 and a quotient of the splat of 1 by it. Over the
  extended reals the `dot_general` at (i, j) is the inner product of rows i and j of `mu`, and `1 / (1 + e^(-s))` is the
  logistic function by its definition, corners included, so the result is `Spec.adj mu`.
-/
import proofs.«136421_j9740985827608_1_alg».proof.Proof.RefRun
import proofs.«136421_j9740985827608_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.ValueP

/-- The reference's last nine operations, as a function of the latent means. -/
def tail {F : FTy → Type} [FloatOps F] (mu : FVec F S8192x128 .f32) : FVec F S8192x8192 .f32 :=
  Host.divf (broadcastInDim S8192x8192 ![] bcast_S_S8192x8192 (constant (F := F) S_ .f32 0x3F800000#32))
    (addf (broadcastInDim S8192x8192 ![] bcast_S_S8192x8192 (constant (F := F) S_ .f32 0x3F800000#32))
      (Host.exp (Host.negf (Host.dotGeneral dot_S8192x128_S128x8192_S8192x8192_1_0_0_1_n_n none mu
        (transpose S128x8192 [1, 0] mu transposes_S8192x128_S128x8192_1_0)))))

set_option maxRecDepth 65536 in
set_option maxHeartbeats 4000000 in
/-- The reference's adjacency term is that tail of its latent-means term (the same text, read off). -/
theorem res_adj_eq {F : FTy → Type} [FloatOps F] (m : (ℓ : Loc nD τ sig) → Buf (Elt F) ℓ) (c : Dev nD) :
    res_main_v111 (F := F) m c = tail (res_main_v99 (F := F) m c) := by
  unfold res_main_v111 res_main_v99 tail
  rfl

/-- The literal `1.0` denotes 1. -/
theorem ofBits_one : Ideal.ofBits .f32 0x3F800000#32 = 1 := by
  simp [Ideal.ofBits, Ideal.ieee, -EReal.coe_mul]; norm_num

/-- The splat of `1.0` is 1 at every index. -/
theorem one_apply (i : S8192x8192.Idx) :
    broadcastInDim S8192x8192 ![] bcast_S_S8192x8192 (constant (F := Ideal) S_ .f32 0x3F800000#32) i = 1 := by
  refine (broadcastInDim_apply (s := S_) ![] bcast_S_S8192x8192 (constant (F := Ideal) S_ .f32 0x3F800000#32) i
    (fun a => a.elim0) (fun a => a.elim0)).trans ?_
  rw [ValueIdx.constant_apply, ofBits_one]

/-! ## The `dot_general`'s operand indices, axis by axis -/

theorem lhs_dg_0 (i : S8192x8192.Idx) (q : dot_S8192x128_S128x8192_S8192x8192_1_0_0_1_n_n.contr.Idx) :
    (dot_S8192x128_S128x8192_S8192x8192_1_0_0_1_n_n.lhsIdx i q 0).val = (i 0).val := by
  unfold DotDims.lhsIdx
  rw [dif_neg (show ¬(0 : Fin S8192x128.rank) ∈ dot_S8192x128_S128x8192_S8192x8192_1_0_0_1_n_n.lhsBatch by decide), dif_pos (show (0 : Fin S8192x128.rank) ∈ dot_S8192x128_S128x8192_S8192x8192_1_0_0_1_n_n.lhsNonContracting by decide)]
  rfl
theorem lhs_dg_1 (i : S8192x8192.Idx) (q : dot_S8192x128_S128x8192_S8192x8192_1_0_0_1_n_n.contr.Idx) :
    (dot_S8192x128_S128x8192_S8192x8192_1_0_0_1_n_n.lhsIdx i q 1).val = (q ⟨0, by decide⟩).val :=
  dot_S8192x128_S128x8192_S8192x8192_1_0_0_1_n_n.lhsIdx_val_of_single rfl i q
theorem rhs_dg_0 (i : S8192x8192.Idx) (q : dot_S8192x128_S128x8192_S8192x8192_1_0_0_1_n_n.contr.Idx) :
    (dot_S8192x128_S128x8192_S8192x8192_1_0_0_1_n_n.rhsIdx i q 0).val = (q ⟨0, by decide⟩).val :=
  dot_S8192x128_S128x8192_S8192x8192_1_0_0_1_n_n.rhsIdx_val_of_single rfl i q
theorem rhs_dg_1 (i : S8192x8192.Idx) (q : dot_S8192x128_S128x8192_S8192x8192_1_0_0_1_n_n.contr.Idx) :
    (dot_S8192x128_S128x8192_S8192x8192_1_0_0_1_n_n.rhsIdx i q 1).val = (i 1).val := by
  unfold DotDims.rhsIdx
  rw [dif_neg (show ¬(1 : Fin S128x8192.rank) ∈ dot_S8192x128_S128x8192_S8192x8192_1_0_0_1_n_n.rhsBatch by decide), dif_pos (show (1 : Fin S128x8192.rank) ∈ dot_S8192x128_S128x8192_S8192x8192_1_0_0_1_n_n.rhsNonContracting by decide)]
  rfl

/-- Row `i 0`, column `k` of the latent means. -/
abbrev lidx (i : S8192x8192.Idx) (k : Fin 128) : S8192x128.Idx := fun a => match a with
  | ⟨0, _⟩ => ⟨(i 0).val, (i 0).isLt⟩
  | ⟨1, _⟩ => ⟨k.val, k.isLt⟩
/-- Row `k`, column `i 1` of the transposed latent means. -/
abbrev ridx (i : S8192x8192.Idx) (k : Fin 128) : S128x8192.Idx := fun a => match a with
  | ⟨0, _⟩ => ⟨k.val, k.isLt⟩
  | ⟨1, _⟩ => ⟨(i 1).val, (i 1).isLt⟩
/-- Row `i 1`, column `k` of the latent means: what the transposed operand reads at `ridx i k`. -/
abbrev tidx (i : S8192x8192.Idx) (k : Fin 128) : S8192x128.Idx := fun a => match a with
  | ⟨0, _⟩ => ⟨(i 1).val, (i 1).isLt⟩
  | ⟨1, _⟩ => ⟨k.val, k.isLt⟩

/-- The `dot_general` of the latent means with their transpose, at (i, j): the inner product of rows i and j. -/
theorem dot_apply (mu : FVec Ideal S8192x128 .f32) (i : S8192x8192.Idx) :
    Host.dotGeneral dot_S8192x128_S128x8192_S8192x8192_1_0_0_1_n_n none mu (transpose S128x8192 [1, 0] mu transposes_S8192x128_S128x8192_1_0) i
      = ∑ k : Fin 128, mu (lidx i k) * mu (tidx i k) := by
  simp only [Host.dotGeneral]
  rw [Ideal.dotGeneral_apply, ← Equiv.sum_comp (ValueIdx.contrEquiv1 dot_S8192x128_S128x8192_S8192x8192_1_0_0_1_n_n 128 rfl rfl).symm]
  refine Finset.sum_congr rfl fun k _ => ?_
  have hk := ValueIdx.contrEquiv1_symm_val dot_S8192x128_S128x8192_S8192x8192_1_0_0_1_n_n 128 rfl rfl k
  have el : dot_S8192x128_S128x8192_S8192x8192_1_0_0_1_n_n.lhsIdx i ((ValueIdx.contrEquiv1 dot_S8192x128_S128x8192_S8192x8192_1_0_0_1_n_n 128 rfl rfl).symm k) = lidx i k := funext fun a => Fin.ext (by
    match a with
    | ⟨0, _⟩ => exact lhs_dg_0 _ _
    | ⟨1, _⟩ => exact (lhs_dg_1 _ _).trans hk)
  have er : dot_S8192x128_S128x8192_S8192x8192_1_0_0_1_n_n.rhsIdx i ((ValueIdx.contrEquiv1 dot_S8192x128_S128x8192_S8192x8192_1_0_0_1_n_n 128 rfl rfl).symm k) = ridx i k := funext fun a => Fin.ext (by
    match a with
    | ⟨0, _⟩ => exact (rhs_dg_0 _ _).trans hk
    | ⟨1, _⟩ => exact rhs_dg_1 _ _)
  rw [el, er]
  refine congrArg (mu (lidx i k) * ·) ?_
  exact transpose_apply [1, 0] mu transposes_S8192x128_S128x8192_1_0 (ridx i k) (tidx i k) (fun b => match b with
    | ⟨0, _⟩ => rfl
    | ⟨1, _⟩ => rfl)

/-- THE REFERENCE'S TAIL IS THE DECODER: `1 / (1 + exp(-(mu muᵀ)))` is `Spec.adj mu`, entry by entry. -/
theorem tail_eq_adj (mu : FVec Ideal S8192x128 .f32) : tail (F := Ideal) mu = Spec.adj mu := by
  funext i
  rw [Spec.adj_apply]
  unfold tail Spec.gram
  show Ideal.div (broadcastInDim S8192x8192 ![] bcast_S_S8192x8192 (constant (F := Ideal) S_ .f32 0x3F800000#32) i)
      (broadcastInDim S8192x8192 ![] bcast_S_S8192x8192 (constant (F := Ideal) S_ .f32 0x3F800000#32) i
        + Ideal.exp (-(Host.dotGeneral dot_S8192x128_S128x8192_S8192x8192_1_0_0_1_n_n none mu (transpose S128x8192 [1, 0] mu transposes_S8192x128_S128x8192_1_0) i)))
    = Ideal.div 1 (1 + Ideal.exp (-(∑ k : Fin 128, mu (ValueIdx.ix2 (i 0) k) * mu (ValueIdx.ix2 (i 1) k))))
  rw [one_apply, dot_apply]
  have e : ∀ k : Fin 128, mu (lidx i k) * mu (tidx i k) = mu (ValueIdx.ix2 (i 0) k) * mu (ValueIdx.ix2 (i 1) k) := fun k =>
    congrArg₂ (· * ·) (congrArg mu (funext fun a => match a with | ⟨0, _⟩ => rfl | ⟨1, _⟩ => rfl))
      (congrArg mu (funext fun a => match a with | ⟨0, _⟩ => rfl | ⟨1, _⟩ => rfl))
  rw [Finset.sum_congr rfl fun k _ => e k]

end Cert.ReferenceIdeal.RefValue

end
-- ==== Proof.Bridge.lean ====
/-
  The two programs' host parts compute the same latent means and the same log-variances.

  Up to the decoder, the kernel program and the reference run the same host operations in the same order on their
  arguments: the same degree count, normalisation, gather, scale and scatter-add for each of the two graph
  convolutions, the same bias and relu, the same two linear heads. So, from memories that agree on the arguments, the
  reference's latent-means term and log-variance term are the kernel program's buffers when its region is entered. The
  comparison is of one operation chain with itself and needs no property of any operation, so it is made at an
  arbitrary float family.
-/
import proofs.«136421_j9740985827608_1_alg».proof.Proof.HostIdeal
import proofs.«136421_j9740985827608_1_alg».proof.Proof.RefRun
import Idealize.ShloMosaic.Lib.StableHlo.Run

set_option maxRecDepth 65536

noncomputable section

namespace Cert.Bridge

open Idealize.ShloMosaic Idealize.ShloMosaic.TcCoe Idealize.SL.Sem Idealize.ShloMosaic.StableHlo

variable {F : FTy → Type} [FloatOps F]
variable (m : (ℓ : Loc Cert.KernelIdeal.nD Cert.KernelIdeal.τ Cert.KernelIdeal.sig) → Buf (Elt F) ℓ)
  (m' : (ℓ : Loc Cert.ReferenceIdeal.nD Cert.ReferenceIdeal.τ Cert.ReferenceIdeal.sig) → Buf (Elt F) ℓ)
  (c : Dev Cert.KernelIdeal.nD)

set_option maxHeartbeats 40000000 in
/-- The reference's latent means are the kernel program's, from memories agreeing on the eight arguments they read. -/
theorem mu_eq (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.ValueP.res_main_v99 (F := F) m' c = Cert.KernelIdeal.Hand.V (F := F) m c Cert.KernelIdeal.main_v99 := by
  symm
  unfold Cert.ReferenceIdeal.ValueP.res_main_v99
  rw [h0, h1, h2, h3, h4, h5, h6, h7]
  show StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6])
    (fun b => m (c, b)) (Proc.devRef .tc Cert.KernelIdeal.main_v99) = _
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6,
    List.flatten_cons, List.flatten_nil, List.append_nil, List.cons_append, List.nil_append]
  after_results_simp <;> rfl

set_option maxHeartbeats 40000000 in
/-- The reference's log-variances are the kernel program's, from memories agreeing on the eight arguments they read. -/
theorem logvar_eq (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.ValueP.res_main_v103 (F := F) m' c = Cert.KernelIdeal.Hand.V (F := F) m c Cert.KernelIdeal.main_v103 := by
  symm
  unfold Cert.ReferenceIdeal.ValueP.res_main_v103
  rw [h0, h1, h2, h3, h4, h5, h8, h9]
  show StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6])
    (fun b => m (c, b)) (Proc.devRef .tc Cert.KernelIdeal.main_v103) = _
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6,
    List.flatten_cons, List.flatten_nil, List.append_nil, List.cons_append, List.nil_append]
  after_results_simp <;> rfl

end Cert.Bridge

end
-- ==== Proof.lean ====
/-
  The certificate: a graph variational autoencoder's forward pass with the dot-product decoder as a kernel, against
  its jnp reference, over the extended reals.

  Both programs compute the latent means `mu` and the log-variances by the same host operations (two graph
  convolutions with symmetric normalisation, then two linear heads). The kernel program then decodes
  `adj = logistic(mu muᵀ)` in 8 × 8 blocks of 1024 × 1024, each block from a row block and a column block of `mu`
  (one array read through two windows); the reference decodes it whole as `1 / (1 + exp(-(mu muᵀ)))`.

  * The two kernel programs' frames: the region is launched with the buffer of `mu` split into two read shares, one
    per input window; the body's three loads and one covering store run at every grid point; nothing writes an
    argument.
  * The reference's frame: its generated run.
  * No operation was rewritten by the idealization, so nothing is to be preserved.
  * The results agree: `mu` and the log-variances are one operation chain applied to arguments that agree; the
    kernel's 64 blocks tile `Spec.adj mu`, entry (i, j) the logistic function of the inner product of rows i and j; and
    the reference's `1 / (1 + e^(-s))` of the same inner product is that logistic function by definition. No law that
    needs finiteness is used: sums and products are compared term by term in the same order.
-/
import proofs.«136421_j9740985827608_1_alg».proof.Defs
import proofs.«136421_j9740985827608_1_alg».proof.Proof.Gen.Kernel
import proofs.«136421_j9740985827608_1_alg».proof.Proof.Gen.KernelIdeal
import proofs.«136421_j9740985827608_1_alg».proof.Proof.Gen.ReferenceIdeal
import proofs.«136421_j9740985827608_1_alg».proof.Proof.Gen.Pre_finite_inputs
import proofs.«136421_j9740985827608_1_alg».proof.Proof.FrameBits
import proofs.«136421_j9740985827608_1_alg».proof.Proof.FrameIdeal
import proofs.«136421_j9740985827608_1_alg».proof.Proof.ValueIdeal
import proofs.«136421_j9740985827608_1_alg».proof.Proof.RefRun
import proofs.«136421_j9740985827608_1_alg».proof.Proof.RefValue
import proofs.«136421_j9740985827608_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2.2) (Cert.ReferenceIdeal.ValueP.run (F := Ideal) m ρ)

theorem preserves : Cert.preserves_Kernel_KernelIdeal := trivial

/-- From memories agreeing on the arguments both programs end with the same three results. -/
theorem algebraic : Cert.algebraic_KernelIdeal_ReferenceIdeal := by
  intro m ρ m' ρ' _ hagree
  refine ⟨_, _, _, Cert.KernelIdeal.Hand.value_run m ρ, ?_⟩
  refine (θ_run Cert.ReferenceIdeal.defs _ _).mono (fun _ h c => ?_) (Cert.ReferenceIdeal.ValueP.run (F := Ideal) m' ρ')
  obtain ⟨a0, a1, a2, a3, a4, a5, a6, a7, a8, a9⟩ := hagree c
  have hmu := Cert.Bridge.mu_eq (F := Ideal) m m' c a0 a1 a2 a3 a4 a5 a6 a7
  have hlv := Cert.Bridge.logvar_eq (F := Ideal) m m' c a0 a1 a2 a3 a4 a5 a8 a9
  refine ⟨(h c).1.trans ?_, (h c).2.1.trans hmu, (h c).2.2.1.trans hlv, (h c).2.2.2⟩
  exact (Cert.ReferenceIdeal.RefValue.res_adj_eq (F := Ideal) m' c).trans
    ((congrArg (Cert.ReferenceIdeal.RefValue.tail (F := Ideal)) hmu).trans (Cert.ReferenceIdeal.RefValue.tail_eq_adj _))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
